-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x270x1024 : Shape := ⟨3, ![256, 270, 1024]⟩
abbrev S256 : Shape := ⟨1, ![256]⟩
abbrev S200x270x270 : Shape := ⟨3, ![200, 270, 270]⟩
abbrev S_ : Shape := ⟨0, ![]⟩

class Facts : Prop where
  bcast_S_S256x270x1024 : S_.BroadcastsInDim S256x270x1024 (![] : Fin 0 → Fin S256x270x1024.rank)
  reducesTo_S256x270x1024_S_d0_1_2 : S256x270x1024.ReducesTo [0, 1, 2] S_
  h_S_ : 0 < S_.numel
  bcast_S_S200x270x270 : S_.BroadcastsInDim S200x270x270 (![] : Fin 0 → Fin S200x270x270.rank)
  reducesTo_S200x270x270_S_d0_1_2 : S200x270x270.ReducesTo [0, 1, 2] S_
  bcast_S_S256 : S_.BroadcastsInDim S256 (![] : Fin 0 → Fin S256.rank)
  reducesTo_S256_S_d0 : S256.ReducesTo [0] S_

variable [Facts]

def fn {F : FTy → Type} [FloatOps F] (main_arg0 : FVec F S256x270x1024 .f32) (main_arg1 : IVec S256 32) (main_arg2 : FVec F S200x270x270 .f32) : IVec S_ 1 :=
  let main_v0 : FVec F S256x270x1024 .f32 := Host.absf main_arg0
  let main_cst : FVec F S_ .f32 := constant S_ .f32 0x7F800000#32
  let main_v1 : FVec F S256x270x1024 .f32 := broadcastInDim S256x270x1024 ![] bcast_S_S256x270x1024 main_cst
  let main_v2 : IVec S256x270x1024 1 := cmpf .olt main_v0 main_v1
  let main_c : IVec S_ 1 := constantI S_ 1 1#1
  let main_v3 : IVec S_ 1 := (fun x v => Host.reduce IntOp.andi x v reducesTo_S256x270x1024_S_d0_1_2 h_S_) main_v2 main_c
  let main_v4 : FVec F S200x270x270 .f32 := Host.absf main_arg2
  let main_cst_0 : FVec F S_ .f32 := constant S_ .f32 0x7F800000#32
  let main_v5 : FVec F S200x270x270 .f32 := broadcastInDim S200x270x270 ![] bcast_S_S200x270x270 main_cst_0
  let main_v6 : IVec S200x270x270 1 := cmpf .olt main_v4 main_v5
  let main_c_1 : IVec S_ 1 := constantI S_ 1 1#1
  let main_v7 : IVec S_ 1 := (fun x v => Host.reduce IntOp.andi x v reducesTo_S200x270x270_S_d0_1_2 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg1 main_v9
  let main_c_3 : IVec S_ 32 := constantI S_ 32 200#32
  let main_v11 : IVec S256 32 := broadcastInDim S256 ![] bcast_S_S256 main_c_3
  let main_v12 : IVec S256 1 := cmpi .slt main_arg1 main_v11
  let main_v13 : IVec S256 1 := andi main_v10 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v8 main_v14
  main_v15
-- ==== Kernel.lean ====
abbrev S256x270x1024 : Shape := ⟨3, ![256, 270, 1024]⟩
abbrev S256 : Shape := ⟨1, ![256]⟩
abbrev S200x270x270 : Shape := ⟨3, ![200, 270, 270]⟩
abbrev S1x270x1024 : Shape := ⟨3, ![1, 270, 1024]⟩
abbrev S1x270x270 : Shape := ⟨3, ![1, 270, 270]⟩
abbrev S1 : Shape := ⟨1, ![1]⟩
abbrev S270x1024 : Shape := ⟨2, ![270, 1024]⟩
abbrev S270x270 : Shape := ⟨2, ![270, 270]⟩

abbrev nBuf : Space → Nat
  | .hbm => 3
  | .vmem => 6
  | .smem => 1
  | _ => 0

abbrev bufTy : (tb : Table) → Fin (tcTables nBuf tb) → BufTy
  | .hbm, ⟨0, _⟩ => ⟨S256x270x1024, .f32⟩
  | .hbm, ⟨1, _⟩ => ⟨S200x270x270, .f32⟩
  | .hbm, ⟨2, _⟩ => ⟨S256x270x1024, .f32⟩
  | .local _ .vmem, ⟨0, _⟩ => ⟨S1x270x1024, .f32⟩
  | .local _ .vmem, ⟨1, _⟩ => ⟨S1x270x1024, .f32⟩
  | .local _ .vmem, ⟨2, _⟩ => ⟨S1x270x270, .f32⟩
  | .local _ .vmem, ⟨3, _⟩ => ⟨S1x270x270, .f32⟩
  | .local _ .vmem, ⟨4, _⟩ => ⟨S1x270x1024, .f32⟩
  | .local _ .vmem, ⟨5, _⟩ => ⟨S1x270x1024, .f32⟩
  | .local _ .smem, ⟨0, _⟩ => ⟨S256, .i32⟩
  | _, _ => ⟨S256x270x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x270x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x270x270 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x270x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  numel1_S1 : S1.numel = 1
  inb_S1x270x1024_S1x270x1024_0_0_0 : ∀ a, (![0, 0, 0] : Fin 3 → Nat) a + S1x270x1024.size a ≤ S1x270x1024.size a
  h_S1x270x1024 : 0 < S1x270x1024.numel
  shapeCasts_S1x270x1024_S270x1024 : S1x270x1024.ShapeCasts S270x1024
  bitsLt_bf16_f32 : FTy.bits .bf16 < FTy.bits .f32
  inb_S1x270x270_S1x270x270_0_0_0 : ∀ a, (![0, 0, 0] : Fin 3 → Nat) a + S1x270x270.size a ≤ S1x270x270.size a
  h_S1x270x270 : 0 < S1x270x270.numel
  shapeCasts_S1x270x270_S270x270 : S1x270x270.ShapeCasts S270x270
  shapeCasts_S270x1024_S1x270x1024 : S270x1024.ShapeCasts S1x270x1024
  dot_S270x270_S270x1024_S270x1024_0_0_1_1_n_n_wf : DotDims.WF S270x270 S270x1024 S270x1024 [0] [0] [1] [1] [] []
  hrank0 : 0 < grid0.rank
  k0_off1_inb : ∀ i : grid0.Coords, ∀ a, (k0_off1 i) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x270x1024.size a ≤ S256x270x1024.size a
  hwx0_0 : ∀ i : grid0.Coords, EltTy.bits .f32 = 32 ∨ (Rect.block (s := S256x270x1024) S1x270x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x270x1024.size a ≤ S256x270x1024.size a
  hwx0_2 : ∀ i : grid0.Coords, EltTy.bits .f32 = 32 ∨ (Rect.block (s := S256x270x1024) S1x270x1024.size (cc0_transform_2 i) (hinb0_2 i)).WholeWords (EltTy.packing .f32)

variable [Facts₀]

def dot_S270x270_S270x1024_S270x1024_0_0_1_1_n_n : DotDims S270x270 S270x1024 S270x1024 where
  lhsContracting := [0]
  rhsContracting := [0]
  lhsNonContracting := [1]
  rhsNonContracting := [1]
  lhsBatch := []
  rhsBatch := []
  wf := dot_S270x270_S270x1024_S270x1024_0_0_1_1_n_n_wf

abbrev spec0_0 : Pipeline.WinSpec sig grid0.rank :=
  Pipeline.WinSpec.ofSpec (Memref.whole main_arg0) S1x270x1024.size reads0_0 false false 2 stage0_0 sem0_0 nbuf0_0 hstage0_0

abbrev spec0_1 : Pipeline.WinSpec sig grid0.rank :=
  Pipeline.WinSpec.ofSpec (Memref.whole main_arg2) S1x270x270.size reads0_1 false false 2 stage0_1 sem0_1 nbuf0_1 hstage0_1

abbrev spec0_2 : Pipeline.WinSpec sig grid0.rank :=
  Pipeline.WinSpec.ofSpec (Memref.whole main_v0) S1x270x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x270x270.size a ≤ S200x270x270.size a), EltTy.bits .f32 = 32 ∨ (Rect.block (s := S200x270x270) S1x270x270.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S256x270x1024 : Shape := ⟨3, ![256, 270, 1024]⟩
abbrev S256 : Shape := ⟨1, ![256]⟩
abbrev S200x270x270 : Shape := ⟨3, ![200, 270, 270]⟩
abbrev S_ : Shape := ⟨0, ![]⟩
abbrev S256x1 : Shape := ⟨2, ![256, 1]⟩
abbrev S256x270x270 : Shape := ⟨3, ![256, 270, 270]⟩

abbrev nBuf : Space → Nat
  | .hbm => 13
  | .vmem => 0
  | .smem => 0
  | _ => 0

abbrev bufTy : (tb : Table) → Fin (tcTables nBuf tb) → BufTy
  | .hbm, ⟨0, _⟩ => ⟨S256x270x1024, .f32⟩
  | .hbm, ⟨1, _⟩ => ⟨S256, .i32⟩
  | .hbm, ⟨2, _⟩ => ⟨S200x270x270, .f32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S256x270x270, .f32⟩
  | .hbm, ⟨12, _⟩ => ⟨S256x270x1024, .f32⟩
  | _, _ => ⟨S256x270x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  gather_S200x270x270_S256x1_S256x270x270_12_0_n_n_0_1_1270270_wf : GatherDims.WF S200x270x270 S256x1 S256x270x270 [1, 2] [0] [] [0] [] 1 ![1, 270, 270]
  dot_S256x270x270_S256x270x1024_S256x270x1024_1_1_2_2_0_0_wf : DotDims.WF S256x270x270 S256x270x1024 S256x270x1024 [1] [1] [2] [2] [0] [0]

variable [Facts₀]

def gather_S200x270x270_S256x1_S256x270x270_12_0_n_n_0_1_1270270 : GatherDims S200x270x270 S256x1 S256x270x270 where
  offsetDims := [1, 2]
  collapsedSliceDims := [0]
  operandBatchingDims := []
  startIndicesBatchingDims := []
  startIndexMap := [0]
  indexVectorDim := 1
  sliceSizes := ![1, 270, 270]
  wf := gather_S200x270x270_S256x1_S256x270x270_12_0_n_n_0_1_1270270_wf
def dot_S256x270x270_S256x270x1024_S256x270x1024_1_1_2_2_0_0 : DotDims S256x270x270 S256x270x1024 S256x270x1024 where
  lhsContracting := [1]
  rhsContracting := [1]
  lhsNonContracting := [2]
  rhsNonContracting := [2]
  lhsBatch := [0]
  rhsBatch := [0]
  wf := dot_S256x270x270_S256x270x1024_S256x270x1024_1_1_2_2_0_0_wf

class Facts : Prop extends Facts₀ where

variable [Facts]
-- ==== Proof.SubjectRange.lean ====
/-
  The precondition read back at the subject table. Beside the finiteness of the two float arrays, the precondition
  says `jnp.all((subjects ≥ 0) & (subjects < 200))`: a reduction by `and` over the 256 entries, from the constant 1, of
  the conjunction of two signed comparisons against broadcast scalars. When the whole predicate is 1, that last
  conjunct is 1, so every entry of the reduced array is 1, so at every position b both comparisons hold of the word
  subjects[b]: read signed it lies in [0, 200). A word in that range reads the same unsigned, and is below 200 — the
  number of 270 × 270 matrices in the weight table, which is what the word indexes. Stated for any float instance: the
  integer part of the predicate does not look at the floats.
-/
import proofs.«410195_j51805895524871_1_alg».proof.Pre_finite_inputs
import Idealize.ShloMosaic.Lib.ReduceAll
import Idealize.ShloMosaic.Lib.StableHlo.Predicate

noncomputable section

namespace Cert.SubjectRange

open Idealize.ShloMosaic Cert.Pre_finite_inputs Cert.Pre_finite_inputs.Facts

/-- A word that reads signed in [0, 200) reads unsigned below 200, and its signed reading is that number. -/
theorem toNat_of_signed (v : BitVec 32) (h : 0 ≤ v.toInt ∧ v.toInt < 200) : v.toNat < 200 ∧ v.toInt = v.toNat := by
  have h32 := v.isLt
  obtain ⟨h0, h1⟩ := h
  unfold BitVec.toInt at h0 h1 ⊢
  split at h0 <;> rename_i hc
  · rw [if_pos hc] at h1; rw [if_pos hc]; omega
  · rw [if_neg hc] at h1; omega

variable {F : FTy → Type} [FloatOps F] [Facts]

/-- A rank-0 array has one index. -/
instance scalarIdx_subsingleton : Subsingleton S_.Idx := ⟨fun _ _ => funext fun d => d.elim0⟩

/-- The one index of a rank-0 array. -/
def scalarIdx : S_.Idx := fun d => d.elim0

/-- When the precondition holds of (x, subjects, weights), every subject word, read signed, lies in [0, 200). -/
theorem signed_range (x : FVec F S256x270x1024 .f32) (s : IVec S256 32) (w : FVec F S200x270x270 .f32)
    (h : fn (F := F) x s w = fun _ => 1#1) (b : S256.Idx) : 0 ≤ (s b).toInt ∧ (s b).toInt < 200 := by
  have e := congrFun h scalarIdx
  dsimp only [fn] at e
  -- the predicate is (finiteness) ∧ (all of the range test): keep the second
  have e2 := (IntOp.andi_eq_one.1 e).2
  -- every entry of the reduced array is 1
  have eb := Host.reduce_andi_all _ _ reducesTo_S256_S_d0 h_S_ scalarIdx e2 b
  obtain ⟨hge, hlt⟩ := IntOp.andi_eq_one.1 eb
  have hge' := IntOp.cmpi_sge.1 hge
  have hlt' := IntOp.cmpi_slt.1 hlt
  rw [StableHlo.Predicate.bcast_scalar bcast_S_S256 h_S_] at hge' hlt'
  exact ⟨hge', hlt'⟩

end Cert.SubjectRange

end
-- ==== Proof.KernelOk.lean ====
/-
  The side condition of the weight window, from the precondition, for the kernel as printed (word level). The pallas_call stages
  one 270 × 270 matrix of the [200, 270, 270] weight table per grid point b, and which one is read from the prefetched
  subject table: block index (subjects[b], 0, 0), the word taken unsigned. The block lies inside the table exactly when
  that unsigned word is below 200 (the other two axes are whole: (0 + 1) · 270 ≤ 270), and the elements are 32 bits
  wide, so transfers end on word boundaries. The precondition puts every subject word in [0, 200) signed, hence below 200
  unsigned; the table is read on device 0, the program's one device.
-/
import proofs.«410195_j51805895524871_1_alg».proof.Defs
import proofs.«410195_j51805895524871_1_alg».proof.Proof.Gen.Kernel.Frame
import proofs.«410195_j51805895524871_1_alg».proof.Proof.Gen.Pre_finite_inputs
import proofs.«410195_j51805895524871_1_alg».proof.Proof.SubjectRange

set_option maxRecDepth 16384

noncomputable section

namespace Cert.Kernel.OkOfPre

open Cert.Kernel Cert.Kernel.Gen
open Idealize.ShloMosaic Idealize.ShloMosaic.TcCoe Idealize.SL.Sem

variable (m : (ℓ : Loc nD τ sig) → Buf (Elt Bits) ℓ)

/-- Every word of the subject table, as the region reads it at entry, is below 200 unsigned. -/
theorem table_lt (h : Cert.Pre_Kernel m) (b : S256.Idx) : (tbl m 0 b).toNat < 200 :=
  (Cert.SubjectRange.toNat_of_signed _ (Cert.SubjectRange.signed_range (F := Bits) _ _ _ (h 0) b)).1

/-- The weight window's block is inside the weight table at every grid point. -/
theorem ok_of_pre (h : Cert.Pre_Kernel m) : Ok m := by
  intro i
  obtain ⟨w, hw, e⟩ : ∃ w : BitVec 32, w.toNat < 200 ∧ cc0_transform_1 k0_off1_inb numel1_S1 (tbl m) i = ![w.toNat, 0, 0] :=
    ⟨_, table_lt m h _, rfl⟩
  refine ⟨fun a => ?_, Or.inl rfl⟩
  rw [e]
  fin_cases a <;> simp [S1x270x270, S200x270x270] <;> omega

end Cert.Kernel.OkOfPre

end
-- ==== Proof.KernelIdealOk.lean ====
/-
  The side condition of the weight window, from the precondition, for the idealized kernel. The pallas_call stages
  one 270 × 270 matrix of the [200, 270, 270] weight table per grid point b, and which one is read from the prefetched
  subject table: block index (subjects[b], 0, 0), the word taken unsigned. The block lies inside the table exactly when
  that unsigned word is below 200 (the other two axes are whole: (0 + 1) · 270 ≤ 270), and the elements are 32 bits
  wide, so transfers end on word boundaries. The precondition puts every subject word in [0, 200) signed, hence below 200
  unsigned; the table is read on device 0, the program's one device.
-/
import proofs.«410195_j51805895524871_1_alg».proof.Defs
import proofs.«410195_j51805895524871_1_alg».proof.Proof.Gen.KernelIdeal.Frame
import proofs.«410195_j51805895524871_1_alg».proof.Proof.Gen.Pre_finite_inputs
import proofs.«410195_j51805895524871_1_alg».proof.Proof.SubjectRange

set_option maxRecDepth 16384

noncomputable section

namespace Cert.KernelIdeal.OkOfPre

open Cert.KernelIdeal Cert.KernelIdeal.Gen
open Idealize.ShloMosaic Idealize.ShloMosaic.TcCoe Idealize.SL.Sem

variable (m : (ℓ : Loc nD τ sig) → Buf (Elt Ideal) ℓ)

/-- Every word of the subject table, as the region reads it at entry, is below 200 unsigned. -/
theorem table_lt (h : Cert.Pre_KernelIdeal m) (b : S256.Idx) : (tbl m 0 b).toNat < 200 :=
  (Cert.SubjectRange.toNat_of_signed _ (Cert.SubjectRange.signed_range (F := Ideal) _ _ _ (h 0) b)).1

/-- The weight window's block is inside the weight table at every grid point. -/
theorem ok_of_pre (h : Cert.Pre_KernelIdeal m) : Ok m := by
  intro i
  obtain ⟨w, hw, e⟩ : ∃ w : BitVec 32, w.toNat < 200 ∧ cc0_transform_1 k0_off1_inb numel1_S1 (tbl m) i = ![w.toNat, 0, 0] :=
    ⟨_, table_lt m h _, rfl⟩
  refine ⟨fun a => ?_, Or.inl rfl⟩
  rw [e]
  fin_cases a <;> simp [S1x270x270, S200x270x270] <;> omega

end Cert.KernelIdeal.OkOfPre

end
-- ==== Proof.BlockProduct.lean ====
/-
  One grid point's arithmetic, read at an index. The body casts the staged x block [1, 270, 1024] to [270, 1024] and
  the staged weight block [1, 270, 270] to [270, 270], narrows both to bf16 (at the exact instance a change of format
  is the identity), multiplies them on the matrix unit contracting axis 0 of BOTH operands into a zero accumulator,
  and casts the [270, 1024] product back to [1, 270, 1024]. So the stored block at (0, d, t) is
      Σ_c  w[0, c, d] · x[0, c, t]      (c over the 270 channels):
  the left operand is read at (c, d) — its contracted axis first, its free axis the product's row — and the right
  operand at (c, t). The contraction's index set has one axis of extent 270; the sum is re-indexed over Fin 270.
-/
import proofs.«410195_j51805895524871_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockProduct

open Cert.KernelIdeal Cert.KernelIdeal.Gen
open Idealize.ShloMosaic Idealize.ShloMosaic.ValueIdx Idealize.ShloMosaic.Pipeline

/-- The left operand's contracted axis (axis 0) carries the contraction index. -/
theorem lhs_axis0 (i : S270x1024.Idx) (q : dot_S270x270_S270x1024_S270x1024_0_0_1_1_n_n.contr.Idx) :
    (dot_S270x270_S270x1024_S270x1024_0_0_1_1_n_n.lhsIdx i q 0).val = (q ⟨0, by decide⟩).val :=
  dot_S270x270_S270x1024_S270x1024_0_0_1_1_n_n.lhsIdx_val_of_single rfl i q
/-- The left operand's free axis (axis 1) carries the product's row. -/
theorem lhs_axis1 (i : S270x1024.Idx) (q : dot_S270x270_S270x1024_S270x1024_0_0_1_1_n_n.contr.Idx) :
    (dot_S270x270_S270x1024_S270x1024_0_0_1_1_n_n.lhsIdx i q 1).val = (i 0).val := by
  unfold DotDims.lhsIdx
  rw [dif_neg (show ¬(1 : Fin S270x270.rank) ∈ dot_S270x270_S270x1024_S270x1024_0_0_1_1_n_n.lhsBatch by decide), dif_pos (show (1 : Fin S270x270.rank) ∈ dot_S270x270_S270x1024_S270x1024_0_0_1_1_n_n.lhsNonContracting by decide)]
  rfl
/-- The right operand's contracted axis (axis 0) carries the contraction index. -/
theorem rhs_axis0 (i : S270x1024.Idx) (q : dot_S270x270_S270x1024_S270x1024_0_0_1_1_n_n.contr.Idx) :
    (dot_S270x270_S270x1024_S270x1024_0_0_1_1_n_n.rhsIdx i q 0).val = (q ⟨0, by decide⟩).val :=
  dot_S270x270_S270x1024_S270x1024_0_0_1_1_n_n.rhsIdx_val_of_single rfl i q
/-- The right operand's free axis (axis 1) carries the product's column. -/
theorem rhs_axis1 (i : S270x1024.Idx) (q : dot_S270x270_S270x1024_S270x1024_0_0_1_1_n_n.contr.Idx) :
    (dot_S270x270_S270x1024_S270x1024_0_0_1_1_n_n.rhsIdx i q 1).val = (i 1).val := by
  unfold DotDims.rhsIdx
  rw [dif_neg (show ¬(1 : Fin S270x1024.rank) ∈ dot_S270x270_S270x1024_S270x1024_0_0_1_1_n_n.rhsBatch by decide), dif_pos (show (1 : Fin S270x1024.rank) ∈ dot_S270x270_S270x1024_S270x1024_0_0_1_1_n_n.rhsNonContracting by decide)]
  rfl

/-- The product of a [270, 270] by a [270, 1024] matrix, both contracted on axis 0, into zero: entry (d, t) is the
    sum over c of left (c, d) times right (c, t). -/
theorem product_apply (wm : FVec Ideal S270x270 .bf16) (xm : FVec Ideal S270x1024 .bf16) (d : Fin 270) (t : Fin 1024) :
    matmul (F := Ideal) dot_S270x270_S270x1024_S270x1024_0_0_1_1_n_n none wm xm (constant (F := Ideal) S270x1024 .f32 0x00000000#32) (ix2 d t)
      = ∑ c : Fin 270, wm (ix2 c d) * xm (ix2 c t) := by
  simp only [matmul]
  rw [Ideal.matmul_constant_zero_apply, ← Equiv.sum_comp (ValueIdx.contrEquiv1 dot_S270x270_S270x1024_S270x1024_0_0_1_1_n_n 270 rfl rfl).symm]
  refine Finset.sum_congr rfl fun k _ => ?_
  have hk := ValueIdx.contrEquiv1_symm_val dot_S270x270_S270x1024_S270x1024_0_0_1_1_n_n 270 rfl rfl k
  have el : dot_S270x270_S270x1024_S270x1024_0_0_1_1_n_n.lhsIdx (ix2 d t) ((ValueIdx.contrEquiv1 dot_S270x270_S270x1024_S270x1024_0_0_1_1_n_n 270 rfl rfl).symm k) = ix2 k d := funext fun a => Fin.ext (by
    match a with
    | ⟨0, _⟩ => exact (lhs_axis0 _ _).trans hk
    | ⟨1, _⟩ => exact lhs_axis1 _ _)
  have er : dot_S270x270_S270x1024_S270x1024_0_0_1_1_n_n.rhsIdx (ix2 d t) ((ValueIdx.contrEquiv1 dot_S270x270_S270x1024_S270x1024_0_0_1_1_n_n 270 rfl rfl).symm k) = ix2 k t := funext fun a => Fin.ext (by
    match a with
    | ⟨0, _⟩ => exact (rhs_axis0 _ _).trans hk
    | ⟨1, _⟩ => exact rhs_axis1 _ _)
  rw [el, er]

/-- THE STORED BLOCK AT AN INDEX: Σ_c w[0, c, d] · x[0, c, t] of the two staged blocks. -/
theorem stored_apply (xb : Vec Ideal S1x270x1024 .f32) (wb : Vec Ideal S1x270x270 .f32) (u : Fin 1) (d : Fin 270) (t : Fin 1024) :
    k0_pay1 (F := Ideal) xb wb (ix3 u d t) = ∑ c : Fin 270, wb (ix3 (0 : Fin 1) c d) * xb (ix3 (0 : Fin 1) c t) := by
  unfold k0_pay1
  refine (shapeCast_ab_1ab_apply _ _ u d t).trans ?_
  refine (product_apply _ _ d t).trans ?_
  refine Finset.sum_congr rfl fun c _ => ?_
  exact congrArg₂ (· * ·) (shapeCast_1ab_ab_apply wb _ c d) (shapeCast_1ab_ab_apply xb _ c t)

end Cert.KernelIdeal.BlockProduct

end
-- ==== Proof.MixSpec.lean ====
/-
  The function both programs compute. With x : [256, 270, 1024], a subject word s[b] for each of the 256 batch
  elements and a table w : [200, 270, 270] of channel-mixing matrices,
      out[b, d, t] = Σ_c  w[row(s[b]), c, d] · x[b, c, t]        (c over the 270 channels),
  a sum of products of extended reals. `row` reads the word unsigned and clamps it to the table's last matrix, 199, so
  that the function is total; on the domain the precondition states (0 ≤ s[b] < 200) the clamp does nothing and the row
  is the word's value. No law of arithmetic is needed to join the two programs: both form the same products, weight on
  the left, and sum them over the same index set.
-/
import Idealize.ShloMosaic.PureOps.Ideal
import Idealize.ShloMosaic.Lib.ValueIdx

noncomputable section

namespace Cert.MixSpec

open Idealize.ShloMosaic Idealize.ShloMosaic.ValueIdx
open scoped BigOperators

abbrev XShape : Shape := ⟨3, ![256, 270, 1024]⟩
abbrev SShape : Shape := ⟨1, ![256]⟩
abbrev WShape : Shape := ⟨3, ![200, 270, 270]⟩

/-- The matrix a subject word selects: its unsigned value, clamped to the last of the 200. -/
def row (v : BitVec 32) : Fin 200 := ⟨min v.toNat 199, by omega⟩

/-- In range, the row is the word's value. -/
theorem row_val (v : BitVec 32) (h : v.toNat < 200) : (row v).val = v.toNat := by
  show min v.toNat 199 = v.toNat
  omega

/-- out[b, d, t] = Σ_c w[row(s[b]), c, d] · x[b, c, t]. -/
def mix (x : XShape.Idx → EReal) (s : SShape.Idx → BitVec 32) (w : WShape.Idx → EReal) : XShape.Idx → EReal :=
  fun i => ∑ c : Fin 270, w (ix3 (row (s (ix1 (i 0)))) c (i 1)) * x (ix3 (i 0) c (i 2))

theorem mix_apply (x : XShape.Idx → EReal) (s : SShape.Idx → BitVec 32) (w : WShape.Idx → EReal)
    (b : Fin 256) (d : Fin 270) (t : Fin 1024) :
    mix x s w (ix3 b d t) = ∑ c : Fin 270, w (ix3 (row (s (ix1 b))) c d) * x (ix3 b c t) := rfl

end Cert.MixSpec

end
-- ==== Proof.ArrayValue.lean ====
/-
  The idealized kernel's result array. The grid has 256 points, one per batch element; at point t the pipeline stages
  block (t, 0, 0) of x (shape [1, 270, 1024]: all of x[t]), block (s[t], 0, 0) of the weight table (shape [1, 270, 270]:
  the matrix the subject word of element t selects, the word read unsigned from the prefetched table at position t), and
  writes back block (t, 0, 0) of the output. The body's one store covers its staging buffer, so what the buffer holds
  after the body is that store's value, the product of the two staged blocks (`stored_eq`), which at (·, d, tt) is
  Σ_c w_blk[0, c, d] · x_blk[0, c, tt] (`BlockProduct.stored_apply`).

  Reading the blocks back through their windows: x_blk[0, c, tt] = x[t, c, tt], and w_blk[0, c, d] = w[s[t], c, d] — the
  block index s[t].toNat is below 200 because the window's side condition says the block is inside the table, so it is
  the specification's row(s[t]). Hence point t writes back exactly block (t, 0, 0) of the mixing `MixSpec.mix x s w`
  (`flushed_eq`). Index (b, d, tt) of the output lies in the block of point b, so the blocks cover the array
  (`covered`), and the array ends holding the mixing (`final`, `run`).
-/
import proofs.«410195_j51805895524871_1_alg».proof.Proof.Gen.KernelIdeal.Frame
import proofs.«410195_j51805895524871_1_alg».proof.Proof.BlockProduct
import proofs.«410195_j51805895524871_1_alg».proof.Proof.MixSpec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx

theorem hz3 : (![0, 0, 0] : Fin 3 → Nat) = fun _ => 0 := funext fun a => by fin_cases a <;> rfl

/-- What the body leaves in the output's staging buffer is its one store's value: the product of the two staged blocks. -/
theorem stored_eq {F : FTy → Type} [FloatOps F] (c : Dev nD) (i : grid0.Coords) (a2 : Memref sig .tc .vmem S1x270x1024 .f32) (h2 : a2.IsWhole)
    (a3 : Memref sig .tc .vmem S1x270x270 .f32) (h3 : a3.IsWhole) (a4 : Memref sig .tc .vmem S1x270x1024 .f32) (h4 : a4.IsWhole)
    (x0 : Vec F S1x270x1024 .f32) (x1 : Vec F S1x270x270 .f32) (xt0 : TbBuf0 (F := F) c tbM0_0) :
    out0_A_2 c i a2 h2 a3 h3 a4 h4 x0 x1 xt0 = k0_pay1 x0 x1 := by
  unfold out0_A_2
  rw [View.read_writes_eq_canon _ _ _ (cover0_A_2 c i a2 h2 a3 h3 a4 h4 x0 x1 xt0)]
  unfold kernelRun0_A
  dsimp only
  sl_unfold_words
  rw [View.canon_unit_zero hz3]
  simp only [View.readAt_eq_ld, h2.read_unread, h3.read_unread, View.ld_unit_zero (S := S1x270x1024) hz3, View.ld_unit_zero (S := S1x270x270) hz3]

/-- The printed index maps over the grid: the x and output windows sit at block (t, 0, 0), the table is read at position t. -/
theorem xmap : ∀ t : Fin grid0.N, cc0_transform_0 (grid0.coords t) = ![t.val, 0, 0] := by decide +kernel
theorem omap : ∀ t : Fin grid0.N, cc0_transform_2 (grid0.coords t) = ![t.val, 0, 0] := by decide +kernel
theorem tpos : ∀ t : Fin grid0.N, k0_off1 (grid0.coords t) = ![t.val] := by decide +kernel

/-- The one element of the subject table the weight window's index map reads at point t is element t. -/
theorem table_pos (t : Fin grid0.N) (h1 : 0 < S1.numel) :
    (Rect.unit (s := S256) (k0_off1 (grid0.coords t)) S1.size (k0_off1_inb (grid0.coords t))).emb (Shape.Idx.first h1)
      = ix1 (⟨t.val, lt_of_lt_of_eq t.isLt N_0⟩ : Fin 256) := by
  funext a
  apply Fin.ext
  match a with
  | ⟨0, _⟩ =>
    show k0_off1 (grid0.coords t) 0 + 1 * (Shape.Idx.first h1 (0 : Fin 1)).val = t.val
    have hf : (Shape.Idx.first h1 (0 : Fin 1)).val = 0 := by
      have := (Shape.Idx.first h1 (0 : Fin 1)).isLt
      have e : S1.size (0 : Fin 1) = 1 := by decide
      omega
    rw [tpos t, hf]
    show t.val + 1 * 0 = t.val
    omega

variable (m : (ℓ : Loc nD τ sig) → Buf (Elt Ideal) ℓ) (ρ : Dev nD → PrngReg)

/-- The batch element grid point t works on. -/
abbrev batchOf (hO : Ok m) (t : Fin (cfgM m hO).N) : Fin 256 := ⟨t.val, lt_of_lt_of_eq t.isLt N_0⟩

/-- The two staged input blocks at point t and the three argument arrays as the region finds them, at their literal types. -/
abbrev xblk (hO : Ok m) (c : Dev nD) (t : Fin (cfgM m hO).N) : Vec Ideal S1x270x1024 .f32 := iblk m hO c 0 t
abbrev wblk (hO : Ok m) (c : Dev nD) (t : Fin (cfgM m hO).N) : Vec Ideal S1x270x270 .f32 := iblk m hO c 1 t
abbrev xarr (c : Dev nD) : Vec Ideal S256x270x1024 .f32 := V m c main_arg0
abbrev sarr (c : Dev nD) : IVec S256 32 := V m c main_arg1
abbrev warr (c : Dev nD) : Vec Ideal S200x270x270 .f32 := V m c main_arg2

/-- The x block at point t is rows (t, ·, ·) of x. -/
theorem xblk_apply (hO : Ok m) (c : Dev nD) (t : Fin (cfgM m hO).N) (cc : Fin 270) (tt : Fin 1024) :
    xblk m hO c t (ix3 (0 : Fin 1) cc tt) = xarr m c (ix3 (batchOf m hO t) cc tt) := by
  show V m c main_arg0 ((((cfgM m hO).win 0).blk t).view.emb (ix3 (0 : Fin 1) cc tt)) = V m c main_arg0 _
  congr 1
  funext a
  apply Fin.ext
  have e := xmap t
  match a with
  | ⟨0, _⟩ =>
    show cc0_transform_0 (grid0.coords t) 0 * 1 + 1 * 0 = t.val
    rw [e]; show t.val * 1 + 1 * 0 = t.val; omega
  | ⟨1, _⟩ =>
    show cc0_transform_0 (grid0.coords t) 1 * 270 + 1 * cc.val = cc.val
    rw [e]; show 0 * 270 + 1 * cc.val = cc.val; omega
  | ⟨2, _⟩ =>
    show cc0_transform_0 (grid0.coords t) 2 * 1024 + 1 * tt.val = tt.val
    rw [e]; show 0 * 1024 + 1 * tt.val = tt.val; omega

/-- The block index of the weight window at point t, on its first axis, is the subject word of batch element t read unsigned. -/
theorem wrow (hO : Ok m) (c : Dev nD) (t : Fin (cfgM m hO).N) :
    cc0_transform_1 k0_off1_inb numel1_S1 (tbl m) (grid0.coords t) 0 = (sarr m c (ix1 (batchOf m hO t))).toNat := by
  have hs : sarr m c = tbl m 0 := V_pre m c 0
  rw [hs]
  exact congrArg (fun z => (tbl m 0 z).toNat) (table_pos t _)

/-- The weight block at point t is matrix row(subjects[t]) of the weight table. -/
theorem wblk_apply (hO : Ok m) (c : Dev nD) (t : Fin (cfgM m hO).N) (cc d : Fin 270) :
    wblk m hO c t (ix3 (0 : Fin 1) cc d) = warr m c (ix3 (Cert.MixSpec.row (sarr m c (ix1 (batchOf m hO t)))) cc d) := by
  show V m c main_arg2 ((((cfgM m hO).win 1).blk t).view.emb (ix3 (0 : Fin 1) cc d)) = V m c main_arg2 _
  congr 1
  funext a
  apply Fin.ext
  have hw := wrow m hO c t
  have h0 : (cc0_transform_1 k0_off1_inb numel1_S1 (tbl m) (grid0.coords t) 0 + 1) * 1 ≤ 200 :=
    (hO (grid0.coords t)).elim fun h _ => h 0
  have hlt : (sarr m c (ix1 (batchOf m hO t))).toNat < 200 := by omega
  match a with
  | ⟨0, _⟩ =>
    show cc0_transform_1 k0_off1_inb numel1_S1 (tbl m) (grid0.coords t) 0 * 1 + 1 * 0 = (Cert.MixSpec.row (sarr m c (ix1 (batchOf m hO t)))).val
    rw [hw, Cert.MixSpec.row_val _ hlt]; omega
  | ⟨1, _⟩ =>
    show 0 * 270 + 1 * cc.val = cc.val
    omega
  | ⟨2, _⟩ =>
    show 0 * 270 + 1 * d.val = d.val
    omega

/-- What point t computes, at (·, d, tt), is entry (t, d, tt) of the mixing of the three arrays. -/
theorem point_value (hO : Ok m) (c : Dev nD) (t : Fin (cfgM m hO).N) (u : Fin 1) (d : Fin 270) (tt : Fin 1024) :
    k0_pay1 (F := Ideal) (xblk m hO c t) (wblk m hO c t) (ix3 u d tt)
      = Cert.MixSpec.mix (xarr m c) (sarr m c) (warr m c) (ix3 (batchOf m hO t) d tt) := by
  refine (Cert.KernelIdeal.BlockProduct.stored_apply _ _ u d tt).trans ?_
  refine (Finset.sum_congr rfl fun k _ => ?_).trans (Cert.MixSpec.mix_apply _ _ _ _ _ _).symm
  exact congrArg₂ (· * ·) (wblk_apply m hO c t k d) (xblk_apply m hO c t k tt)

/-- WHAT POINT t WRITES BACK is block (t, 0, 0) of the mixing of the argument arrays as the region finds them. -/
theorem flushed_eq (hO : Ok m) (c : Dev nD) (t : Fin (cfgM m hO).N) :
    (dats m hO 0 c).flushed 2 t = (((cfgM m hO).win 2).blk t).view.read (Elt Ideal)
      (Cert.MixSpec.mix (xarr m c) (sarr m c) (warr m c)) := by
  show ((cfgM m hO).win 2).cut (grid0.coords t) ((dats m hO 0 c).after 2 t) = _
  rw [after0_2]
  unfold outsAt0
  refine funext fun (j : S1x270x1024.Idx) => ?_
  refine (congrFun (stored_eq (F := Ideal) c (grid0.coords t) (ms0_0 m hO t) (hs0_0 m hO t) (ms0_1 m hO t) (hs0_1 m hO t)
    (ms0_2 m hO t) (hs0_2 m hO t) (iblk m hO c 0 t) (iblk m hO c 1 t) (tbl m 0)) _).trans ?_
  have hj0 : (j 0).val < 1 := (j 0).isLt
  have hj1 : (j 1).val < 270 := (j 1).isLt
  have hj2 : (j 2).val < 1024 := (j 2).isLt
  have hidx : ((cfgM m hO).win 2).xinj (grid0.coords t) j = ix3 (⟨(j 0).val, hj0⟩ : Fin 1) (⟨(j 1).val, hj1⟩ : Fin 270) (⟨(j 2).val, hj2⟩ : Fin 1024) := by
    funext a
    match a with
    | ⟨0, _⟩ => rfl
    | ⟨1, _⟩ => rfl
    | ⟨2, _⟩ => rfl
  refine (congrArg (k0_pay1 (F := Ideal) (xblk m hO c t) (wblk m hO c t)) hidx).trans ?_
  refine (point_value m hO c t _ _ _).trans ?_
  show Cert.MixSpec.mix (xarr m c) (sarr m c) (warr m c) _ = Cert.MixSpec.mix (xarr m c) (sarr m c) (warr m c) ((((cfgM m hO).win 2).blk t).view.emb j)
  congr 1
  funext a
  apply Fin.ext
  have e := omap t
  match a with
  | ⟨0, _⟩ =>
    show t.val = cc0_transform_2 (grid0.coords t) 0 * 1 + 1 * (j 0).val
    rw [e]; show t.val = t.val * 1 + 1 * (j 0).val; omega
  | ⟨1, _⟩ =>
    show (j 1).val = cc0_transform_2 (grid0.coords t) 1 * 270 + 1 * (j 1).val
    rw [e]; show (j 1).val = 0 * 270 + 1 * (j 1).val; omega
  | ⟨2, _⟩ =>
    show (j 2).val = cc0_transform_2 (grid0.coords t) 2 * 1024 + 1 * (j 2).val
    rw [e]; show (j 2).val = 0 * 1024 + 1 * (j 2).val; omega

/-- Every index (b, d, tt) of the output lies in the block point b writes back: the 256 blocks tile the array. -/
theorem covered (hO : Ok m) (c : Dev nD) (i : S256x270x1024.Idx) :
    ∃ t : Fin (cfgM m hO).N, ((cfgM m hO).win 2).flush t = true ∧ i ∈ (((cfgM m hO).win 2).blk t).view.set := by
  have hi0 : (i 0).val < 256 := (i 0).isLt
  have hi1 : (i 1).val < 270 := (i 1).isLt
  have hi2 : (i 2).val < 1024 := (i 2).isLt
  obtain ⟨t, ht⟩ : ∃ t : Fin grid0.N, t.val = (i 0).val := ⟨⟨(i 0).val, lt_of_lt_of_eq hi0 N_0.symm⟩, rfl⟩
  refine ⟨t, flush0_2 (adm m hO) t, ?_⟩
  have hset : (((cfgM m hO).win 2).blk t).view.set = (((cfgM m hO).win 2).rect t).set := View.set_slice_whole main_v0 _
  have e := omap t
  refine (Finset.ext_iff.mp hset i).mpr (Rect.mem_set_unit.mpr fun a => ?_)
  match a with
  | ⟨0, _⟩ =>
    show cc0_transform_2 (grid0.coords t) 0 * 1 ≤ (i 0).val ∧ (i 0).val < cc0_transform_2 (grid0.coords t) 0 * 1 + 1
    rw [e]; show t.val * 1 ≤ (i 0).val ∧ (i 0).val < t.val * 1 + 1; omega
  | ⟨1, _⟩ =>
    show cc0_transform_2 (grid0.coords t) 1 * 270 ≤ (i 1).val ∧ (i 1).val < cc0_transform_2 (grid0.coords t) 1 * 270 + 270
    rw [e]; show 0 * 270 ≤ (i 1).val ∧ (i 1).val < 0 * 270 + 270; omega
  | ⟨2, _⟩ =>
    show cc0_transform_2 (grid0.coords t) 2 * 1024 ≤ (i 2).val ∧ (i 2).val < cc0_transform_2 (grid0.coords t) 2 * 1024 + 1024
    rw [e]; show 0 * 1024 ≤ (i 2).val ∧ (i 2).val < 0 * 1024 + 1024; omega

/-- THE OUTPUT ARRAY after the run is the mixing of the three argument arrays. -/
theorem final (hO : Ok m) (c : Dev nD) :
    (dats m hO 0 c).arrAt 2 (cfgM m hO).N = Cert.MixSpec.mix (xarr m c) (sarr m c) (warr m c) :=
  (dats m hO 0 c).arrAt_eq_of_cover 2 (Cert.MixSpec.mix (xarr m c) (sarr m c) (warr m c)) (fun t _ => flushed_eq m hO c t) (covered m hO c)

/-- The run, read: the result array at the mixing of the launch contents of the arguments, the arguments unchanged. -/
theorem run (hO : Ok m) : θ_run defs (onTc (τ := τ) (main (F := Ideal))) ⟨m, fun _ => 0, ρ⟩ fun r => ∀ c : Dev nD,
      r.2.mem ((c.tc : Thread nD τ).loc main_v0)
        = Cert.MixSpec.mix (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 2).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).1 1).trans (((dats m hO 0 c).arrAt_in 1 rfl _).trans ((A_eq m hO c 1).trans (V_main_arg2 m c)))⟩)
    (run_main m ρ hO)

end Cert.KernelIdeal.ArrayValue
end
-- ==== Proof.RefValue.lean ====
/-
  The reference, read at an index. jnp's `weights[subjects]` first wraps a negative subject (s < 0 ? s + 200 : s), lays
  the 256 words out as a [256, 1] table of start indices, and gathers: result row b is the 270 × 270 matrix of the weight
  table at the start index of row b, read signed and clamped into [0, 199] — the operand's axis 0 takes the clamped start
  index (the collapsed axis), its axes 1 and 2 take the result's two offset coordinates. The einsum is one
  `dot_general`, batched over b, contracting the channel axis of both operands, gathered weights on the left:
      out[b, d, t] = Σ_c  gathered[b, c, d] · x[b, c, t].
  On the domain the precondition states, 0 ≤ s[b] < 200 signed, the wrap leaves the word alone (it is not negative), and
  the signed reading is the unsigned one, so the clamped start index is the specification's row(s[b]).
-/
import proofs.«410195_j51805895524871_1_alg».proof.Proof.Gen.ReferenceIdeal.Read
import proofs.«410195_j51805895524871_1_alg».proof.Proof.MixSpec
import proofs.«410195_j51805895524871_1_alg».proof.Proof.SubjectRange
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

variable {α : Type}

/-- The start-index table's entry for batch element b. -/
abbrev startIx (b : Fin 256) : S256x1.Idx := ix2 b (0 : Fin 1)

/-- The operand's axis 0 (collapsed, named by the start index map): the start index of the result's row, signed, clamped. -/
theorem operand_axis0 {w : Nat} (j : S256x270x270.Idx) (idx : IVec S256x1 w) :
    gather_S200x270x270_S256x1_S256x270x270_12_0_n_n_0_1_1270270.start j idx 0 + gather_S200x270x270_S256x1_S256x270x270_12_0_n_n_0_1_1270270.batchCoord j 0 + gather_S200x270x270_S256x1_S256x270x270_12_0_n_n_0_1_1270270.offCoord j 0
      = min (idx (startIx (j 0))).toInt.toNat 199 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S200x270x270.rank) ∈ gather_S200x270x270_S256x1_S256x270x270_12_0_n_n_0_1_1270270.startIndexMap by decide)]
  have hsi : gather_S200x270x270_S256x1_S256x270x270_12_0_n_n_0_1_1270270.siIdx j ⟨List.idxOf (0 : Fin S200x270x270.rank) gather_S200x270x270_S256x1_S256x270x270_12_0_n_n_0_1_1270270.startIndexMap,
      List.idxOf_lt_length_iff.2 (by decide)⟩ = startIx (j 0) := by
    funext b; refine Fin.ext ?_
    match b with
    | ⟨0, _⟩ => rfl
    | ⟨1, _⟩ => rfl
  rw [hsi]
  rfl

/-- The operand's axis 1 (an offset axis, no start): the result's coordinate 1. -/
theorem operand_axis1 {w : Nat} (j : S256x270x270.Idx) (idx : IVec S256x1 w) :
    gather_S200x270x270_S256x1_S256x270x270_12_0_n_n_0_1_1270270.start j idx 1 + gather_S200x270x270_S256x1_S256x270x270_12_0_n_n_0_1_1270270.batchCoord j 1 + gather_S200x270x270_S256x1_S256x270x270_12_0_n_n_0_1_1270270.offCoord j 1 = (j 1).val := by
  rw [GatherDims.batchCoord_eq_zero _ _ _ List.not_mem_nil]
  unfold GatherDims.start GatherDims.offCoord
  rw [dif_neg (show ¬(1 : Fin S200x270x270.rank) ∈ gather_S200x270x270_S256x1_S256x270x270_12_0_n_n_0_1_1270270.startIndexMap by decide),
    dif_pos (show (1 : Fin S200x270x270.rank) ∈ gather_S200x270x270_S256x1_S256x270x270_12_0_n_n_0_1_1270270.sKept by decide)]
  simp only [Nat.zero_add, Nat.add_zero]
  rfl

/-- The operand's axis 2: the result's coordinate 2. -/
theorem operand_axis2 {w : Nat} (j : S256x270x270.Idx) (idx : IVec S256x1 w) :
    gather_S200x270x270_S256x1_S256x270x270_12_0_n_n_0_1_1270270.start j idx 2 + gather_S200x270x270_S256x1_S256x270x270_12_0_n_n_0_1_1270270.batchCoord j 2 + gather_S200x270x270_S256x1_S256x270x270_12_0_n_n_0_1_1270270.offCoord j 2 = (j 2).val := by
  rw [GatherDims.batchCoord_eq_zero _ _ _ List.not_mem_nil]
  unfold GatherDims.start GatherDims.offCoord
  rw [dif_neg (show ¬(2 : Fin S200x270x270.rank) ∈ gather_S200x270x270_S256x1_S256x270x270_12_0_n_n_0_1_1270270.startIndexMap by decide),
    dif_pos (show (2 : Fin S200x270x270.rank) ∈ gather_S200x270x270_S256x1_S256x270x270_12_0_n_n_0_1_1270270.sKept by decide)]
  simp only [Nat.zero_add, Nat.add_zero]
  rfl

/-- A start index read signed and clamped into the table's 200 matrices. -/
def signedRow {w : Nat} (v : BitVec w) : Fin 200 := ⟨min v.toInt.toNat 199, by omega⟩

/-- THE ROW GATHER AT (b, c, d): the table at (clamped signed start index of row b, c, d). -/
theorem gather_apply {w : Nat} (x : S200x270x270.Idx → α) (idx : IVec S256x1 w) (b : Fin 256) (c d : Fin 270) :
    Host.gather gather_S200x270x270_S256x1_S256x270x270_12_0_n_n_0_1_1270270 x idx (ix3 b c d) = x (ix3 (signedRow (idx (startIx b))) c d) := by
  unfold Host.gather
  congr 1
  funext a
  refine Fin.ext ?_
  match a with
  | ⟨0, _⟩ => exact operand_axis0 (ix3 b c d) idx
  | ⟨1, _⟩ => exact operand_axis1 (ix3 b c d) idx
  | ⟨2, _⟩ => exact operand_axis2 (ix3 b c d) idx

/-- A subject word in [0, 200) signed passes the wrap unchanged: the start index of row b is the word itself. -/
theorem start_word (s : IVec S256 32) (hr : ∀ b : S256.Idx, 0 ≤ (s b).toInt ∧ (s b).toInt < 200) (b : Fin 256) :
    val_main_v5 (F := Ideal) s (startIx b) = s (ix1 b) := by
  have hi : idx_main_v5 (startIx b) = ix1 b := funext fun a => by match a with | ⟨0, _⟩ => rfl
  rw [val_main_v5_apply, hi, val_main_v4_apply, val_main_v1_apply, val_main_v0_apply, val_main_c_apply]
  have hc : IntOp.cmpi .slt (s (ix1 b)) 0#32 = 0#1 := eq_zero_of_ne_one fun h => by
    have h1 := IntOp.cmpi_slt.1 h
    have h2 := (hr (ix1 b)).1
    rw [show (0#32 : BitVec 32).toInt = 0 from by decide] at h1
    omega
  rw [hc, select_zero]

/-- THE REFERENCE IS THE MIXING, on the precondition's domain. -/
theorem ref_eq (x : (⟨S256x270x1024, .f32⟩ : BufTy).Contents (Elt Ideal)) (s : (⟨S256, .i32⟩ : BufTy).Contents (Elt Ideal))
    (wt : (⟨S200x270x270, .f32⟩ : BufTy).Contents (Elt Ideal)) (hr : ∀ b : S256.Idx, 0 ≤ (s b).toInt ∧ (s b).toInt < 200) :
    val_main_v7 (F := Ideal) x s wt = Cert.MixSpec.mix x s wt := by
  funext i
  obtain ⟨b, d, t, rfl⟩ : ∃ (b : Fin 256) (d : Fin 270) (t : Fin 1024), i = ix3 b d t := ⟨i 0, i 1, i 2, eq_ix3 i⟩
  rw [val_main_v7_apply, Cert.MixSpec.mix_apply]
  refine Finset.sum_congr rfl fun k _ => ?_
  have el : lidx_main_v7 (ix3 b d t) k = ix3 b k d := funext fun a => by
    match a with
    | ⟨0, _⟩ => rfl
    | ⟨1, _⟩ => rfl
    | ⟨2, _⟩ => rfl
  have er : ridx_main_v7 (ix3 b d t) k = ix3 b k t := funext fun a => by
    match a with
    | ⟨0, _⟩ => rfl
    | ⟨1, _⟩ => rfl
    | ⟨2, _⟩ => rfl
  rw [el, er]
  refine congrArg (· * x (ix3 b k t)) ?_
  unfold val_main_v6
  rw [gather_apply, start_word s hr b]
  have hn := (Cert.SubjectRange.toNat_of_signed _ (hr (ix1 b))).2
  have hrow : signedRow (s (ix1 b)) = Cert.MixSpec.row (s (ix1 b)) := Fin.ext (by
    show min (s (ix1 b)).toInt.toNat 199 = min (s (ix1 b)).toNat 199
    rw [hn]; rfl)
  rw [hrow]

end Cert.ReferenceIdeal.RefValue

end
-- ==== Proof.lean ====
/-
  Per-subject channel mixing: for each of 256 batch elements b, the 270 × 1024 signal x[b] is multiplied on the left
  by the transpose of the 270 × 270 matrix the subject word s[b] selects from a table of 200,
      out[b, d, t] = Σ_c  w[s[b], c, d] · x[b, c, t].
  The kernel walks a grid of 256 points; at point b it stages x[b], the matrix at block index s[b] — read from the
  subject table, prefetched into scalar memory — and the output block (b, ·, ·), and forms the product on the matrix
  unit after narrowing both operands to bf16, which over the extended reals changes nothing. The reference gathers the
  256 matrices (wrapping a negative subject, clamping the start index) and contracts them against x in one batched
  product. Over the extended reals both are the same sum of the same products, weight on the left: no law of arithmetic
  joins them, only the reading of each side at an index (the specification `MixSpec.mix`).

  The precondition carries, beside finiteness of the float arrays, the subject words' domain 0 ≤ s[b] < 200. Outside it
  the kernel's weight block lies outside the table, so the side condition under which the two kernel frames hold is
  derived from it (`ok_of_pre`, once per instance); inside it the reference's wrap and clamp are the identity, which is
  what the value proof uses. Finiteness is never opened: sums and products of extended reals in the same order are equal
  whatever the entries are.

  The three frames: the two kernels' generated frames under that side condition, and the reference's generated run with
  its result dropped. The idealization rewrote nothing, so its claim is `True`. The value claim pairs the kernel's run
  with its result array named as the mixing (`ArrayValue.run`: each point's stored block is a block of the mixing, and
  the 256 blocks tile the array) with the reference's run read at an index (`RefValue.ref_eq`).
-/
import proofs.«410195_j51805895524871_1_alg».proof.Defs
import proofs.«410195_j51805895524871_1_alg».proof.Proof.Gen.Kernel
import proofs.«410195_j51805895524871_1_alg».proof.Proof.Gen.Kernel.Frame
import proofs.«410195_j51805895524871_1_alg».proof.Proof.Gen.KernelIdeal
import proofs.«410195_j51805895524871_1_alg».proof.Proof.Gen.KernelIdeal.Frame
import proofs.«410195_j51805895524871_1_alg».proof.Proof.Gen.ReferenceIdeal
import proofs.«410195_j51805895524871_1_alg».proof.Proof.Gen.ReferenceIdeal.Run
import proofs.«410195_j51805895524871_1_alg».proof.Proof.Gen.ReferenceIdeal.Read
import proofs.«410195_j51805895524871_1_alg».proof.Proof.Gen.Pre_finite_inputs
import proofs.«410195_j51805895524871_1_alg».proof.Proof.SubjectRange
import proofs.«410195_j51805895524871_1_alg».proof.Proof.KernelOk
import proofs.«410195_j51805895524871_1_alg».proof.Proof.KernelIdealOk
import proofs.«410195_j51805895524871_1_alg».proof.Proof.ArrayValue
import proofs.«410195_j51805895524871_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame, the weight blocks inside the table. -/
theorem frame_kernel : Cert.frame_Kernel := fun m ρ h =>
  Cert.Kernel.Gen.frame m ρ (Cert.Kernel.OkOfPre.ok_of_pre m h)

/-- The same for the idealized kernel. -/
theorem frame_kernelIdeal : Cert.frame_KernelIdeal := fun m ρ h =>
  Cert.KernelIdeal.Gen.frame m ρ (Cert.KernelIdeal.OkOfPre.ok_of_pre m h)

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the mixing of the arguments in their result array. -/
theorem algebraic : Cert.algebraic_KernelIdeal_ReferenceIdeal := by
  intro m ρ m' ρ' hpre hagree
  refine ⟨_, Cert.KernelIdeal.ArrayValue.run m ρ (Cert.KernelIdeal.OkOfPre.ok_of_pre m hpre), ?_⟩
  refine (θ_run Cert.ReferenceIdeal.defs _ _).mono (fun _ h c => ⟨(h c).1.trans ?_, (h c).2⟩)
    (Cert.ReferenceIdeal.Value.run (F := Ideal) m' ρ')
  have h0 := (hagree c).1
  have h1 := (hagree c).2.1
  have h2 := (hagree c).2.2
  refine (Cert.ReferenceIdeal.Read.val_main_v7_eq (F := Ideal) _ _ _).trans ?_
  rw [h0, h1, h2]
  exact Cert.ReferenceIdeal.RefValue.ref_eq _ _ _ fun b => Cert.SubjectRange.signed_range (F := Ideal) _ _ _ (hpre c) b

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
